-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x2048 : Shape := ⟨3, ![4, 4096, 2048]⟩
abbrev S2048 : Shape := ⟨1, ![2048]⟩
abbrev S8192x2048 : Shape := ⟨2, ![8192, 2048]⟩
abbrev S_ : Shape := ⟨0, ![]⟩

class Facts : Prop where
  bcast_S_S4x4096x2048 : S_.BroadcastsInDim S4x4096x2048 (![] : Fin 0 → Fin S4x4096x2048.rank)
  reducesTo_S4x4096x2048_S_d0_1_2 : S4x4096x2048.ReducesTo [0, 1, 2] S_
  h_S_ : 0 < S_.numel
  bcast_S_S2048 : S_.BroadcastsInDim S2048 (![] : Fin 0 → Fin S2048.rank)
  reducesTo_S2048_S_d0 : S2048.ReducesTo [0] S_
  bcast_S_S8192x2048 : S_.BroadcastsInDim S8192x2048 (![] : Fin 0 → Fin S8192x2048.rank)
  reducesTo_S8192x2048_S_d0_1 : S8192x2048.ReducesTo [0, 1] S_

variable [Facts]

def fn {F : FTy → Type} [FloatOps F] (main_arg0 : FVec F S4x4096x2048 .f32) (main_arg1 : FVec F S2048 .f32) (main_arg2 : FVec F S8192x2048 .f32) : IVec S_ 1 :=
  let main_v0 : FVec F S4x4096x2048 .f32 := Host.absf main_arg0
  let main_cst : FVec F S_ .f32 := constant S_ .f32 0x7F800000#32
  let main_v1 : FVec F S4x4096x2048 .f32 := broadcastInDim S4x4096x2048 ![] bcast_S_S4x4096x2048 main_cst
  let main_v2 : IVec S4x4096x2048 1 := cmpf .olt main_v0 main_v1
  let main_c : IVec S_ 1 := constantI S_ 1 1#1
  let main_v3 : IVec S_ 1 := (fun x v => Host.reduce IntOp.andi x v reducesTo_S4x4096x2048_S_d0_1_2 h_S_) main_v2 main_c
  let main_v4 : FVec F S2048 .f32 := Host.absf main_arg1
  let main_cst_0 : FVec F S_ .f32 := constant S_ .f32 0x7F800000#32
  let main_v5 : FVec F S2048 .f32 := broadcastInDim S2048 ![] bcast_S_S2048 main_cst_0
  let main_v6 : IVec S2048 1 := cmpf .olt main_v4 main_v5
  let main_c_1 : IVec S_ 1 := constantI S_ 1 1#1
  let main_v7 : IVec S_ 1 := (fun x v => Host.reduce IntOp.andi x v reducesTo_S2048_S_d0 h_S_) main_v6 main_c_1
  let main_v8 : IVec S_ 1 := andi main_v3 main_v7
  let main_v9 : FVec F S8192x2048 .f32 := Host.absf main_arg2
  let main_cst_2 : FVec F S_ .f32 := constant S_ .f32 0x7F800000#32
  let main_v10 : FVec F S8192x2048 .f32 := broadcastInDim S8192x2048 ![] bcast_S_S8192x2048 main_cst_2
  let main_v11 : IVec S8192x2048 1 := cmpf .olt main_v9 main_v10
  let main_c_3 : IVec S_ 1 := constantI S_ 1 1#1
  let main_v12 : IVec S_ 1 := (fun x v => Host.reduce IntOp.andi x v reducesTo_S8192x2048_S_d0_1 h_S_) main_v11 main_c_3
  let main_v13 : IVec S_ 1 := andi main_v8 main_v12
  main_v13
-- ==== Kernel.lean ====
abbrev S4x4096x2048 : Shape := ⟨3, ![4, 4096, 2048]⟩
abbrev S2048 : Shape := ⟨1, ![2048]⟩
abbrev S8192x2048 : Shape := ⟨2, ![8192, 2048]⟩
abbrev S16384x2048 : Shape := ⟨2, ![16384, 2048]⟩
abbrev S1x2048 : Shape := ⟨2, ![1, 2048]⟩
abbrev S_ : Shape := ⟨0, ![]⟩
abbrev S16384x8192 : Shape := ⟨2, ![16384, 8192]⟩
abbrev S512x2048 : Shape := ⟨2, ![512, 2048]⟩
abbrev S2048x2048 : Shape := ⟨2, ![2048, 2048]⟩
abbrev S512 : Shape := ⟨1, ![512]⟩
abbrev S512x1 : Shape := ⟨2, ![512, 1]⟩
abbrev S4x4096x8192 : Shape := ⟨3, ![4, 4096, 8192]⟩

abbrev nBuf : Space → Nat
  | .hbm => 30
  | .vmem => 7
  | .smem => 0
  | _ => 0

abbrev bufTy : (tb : Table) → Fin (tcTables nBuf tb) → BufTy
  | .hbm, ⟨0, _⟩ => ⟨S4x4096x2048, .f32⟩
  | .hbm, ⟨1, _⟩ => ⟨S2048, .f32⟩
  | .hbm, ⟨2, _⟩ => ⟨S8192x2048, .f32⟩
  | .hbm, ⟨3, _⟩ => ⟨S16384x2048, .f32⟩
  | .hbm, ⟨4, _⟩ => ⟨S1x2048, .f32⟩
  | .hbm, ⟨5, _⟩ => ⟨S8192x2048, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S8192x2048, .f32⟩
  | .hbm, ⟨15, _⟩ => ⟨S8192x2048, .f32⟩
  | .hbm, ⟨16, _⟩ => ⟨S8192x2048, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S8192x2048, .f32⟩
  | .hbm, ⟨21, _⟩ => ⟨S8192x2048, .f32⟩
  | .hbm, ⟨22, _⟩ => ⟨S_, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S8192x2048, .f32⟩
  | .hbm, ⟨27, _⟩ => ⟨S8192x2048, .bf16⟩
  | .hbm, ⟨28, _⟩ => ⟨S16384x8192, .f32⟩
  | .hbm, ⟨29, _⟩ => ⟨S4x4096x8192, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x2048, .bf16⟩
  | .local _ .vmem, ⟨4, _⟩ => ⟨S2048x2048, .bf16⟩
  | .local _ .vmem, ⟨5, _⟩ => ⟨S512x2048, .f32⟩
  | .local _ .vmem, ⟨6, _⟩ => ⟨S512x2048, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_3 : Ref sig .tc := ⟨.hbm, 17, rfl⟩
abbrev main_cst_4 : Ref sig .tc := ⟨.hbm, 18, rfl⟩
abbrev main_call1_v0 : Ref sig .tc := ⟨.hbm, 19, rfl⟩
abbrev main_call1_v1 : Ref sig .tc := ⟨.hbm, 20, rfl⟩
abbrev main_call1_v2 : Ref sig .tc := ⟨.hbm, 21, rfl⟩
abbrev main_call1_v3 : Ref sig .tc := ⟨.hbm, 22, rfl⟩
abbrev main_call1_v4 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S4x4096x2048_S16384x2048 : S4x4096x2048.ShapeCasts S16384x2048
  shapeCasts_S2048_S1x2048 : S2048.ShapeCasts S1x2048
  reducesTo_S8192x2048_S_d0_1 : S8192x2048.ReducesTo [0, 1] S_
  h_S_ : 0 < S_.numel
  bcast_S_S8192x2048 : S_.BroadcastsInDim S8192x2048 (![] : Fin 0 → Fin S8192x2048.rank)
  bitsLt_bf16_f32 : FTy.bits .bf16 < FTy.bits .f32
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  reduces_S512x2048_S512 : S512x2048.Reduces [1] S512
  shapeCasts_S512_S512x1 : S512.ShapeCasts S512x1
  broadcasts_S512x1_S512x2048 : S512x1.Broadcasts S512x2048
  broadcasts_S1x2048_S512x2048 : S1x2048.Broadcasts S512x2048
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  transposes_S2048x2048_p1_0_S2048x2048 : S2048x2048.Transposes [1, 0] S2048x2048
  shapeCasts_S16384x8192_S4x4096x8192 : S16384x8192.ShapeCasts S4x4096x8192
  dot_S512x2048_S2048x2048_S512x2048_1_0_0_1_n_n_wf : DotDims.WF S512x2048 S2048x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S16384x2048.size a
  hwx0_0 : ∀ i : grid0.Coords, EltTy.bits .f32 = 32 ∨ (Rect.block (s := S16384x2048) S512x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x2048.size a ≤ S1x2048.size a
  hwx0_1 : ∀ i : grid0.Coords, EltTy.bits .f32 = 32 ∨ (Rect.block (s := S1x2048) S1x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x2048.size a ≤ S8192x2048.size a
  hwx0_2 : ∀ i : grid0.Coords, EltTy.bits .bf16 = 32 ∨ (Rect.block (s := S8192x2048) S2048x2048.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x2048.size a ≤ S16384x8192.size a
  hwx0_3 : ∀ i : grid0.Coords, EltTy.bits .f32 = 32 ∨ (Rect.block (s := S16384x8192) S512x2048.size (cc0_transform_3 i) (hinb0_3 i)).WholeWords (EltTy.packing .f32)

variable [Facts₀]

def dot_S512x2048_S2048x2048_S512x2048_1_0_0_1_n_n : DotDims S512x2048 S2048x2048 S512x2048 where
  lhsContracting := [1]
  rhsContracting := [0]
  lhsNonContracting := [0]
  rhsNonContracting := [1]
  lhsBatch := []
  rhsBatch := []
  wf := dot_S512x2048_S2048x2048_S512x2048_1_0_0_1_n_n_wf

abbrev win0_0 : Pipeline.Window sig grid0 :=
  Pipeline.Window.ofSpec (Memref.whole main_v0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13) S2048x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v14) S512x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x4096x2048 : Shape := ⟨3, ![4, 4096, 2048]⟩
abbrev S2048 : Shape := ⟨1, ![2048]⟩
abbrev S8192x2048 : Shape := ⟨2, ![8192, 2048]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩
abbrev S4x4096x8192 : Shape := ⟨3, ![4, 4096, 8192]⟩

abbrev nBuf : Space → Nat
  | .hbm => 69
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S2048, .f32⟩
  | .hbm, ⟨2, _⟩ => ⟨S8192x2048, .f32⟩
  | .hbm, ⟨3, _⟩ => ⟨S4x4096x2048, .f32⟩
  | .hbm, ⟨4, _⟩ => ⟨S_, .f32⟩
  | .hbm, ⟨5, _⟩ => ⟨S4x4096, .f32⟩
  | .hbm, ⟨6, _⟩ => ⟨S4x4096x1, .f32⟩
  | .hbm, ⟨7, _⟩ => ⟨S_, .f32⟩
  | .hbm, ⟨8, _⟩ => ⟨S4x4096x1, .f32⟩
  | .hbm, ⟨9, _⟩ => ⟨S4x4096x1, .f32⟩
  | .hbm, ⟨10, _⟩ => ⟨S_, .f32⟩
  | .hbm, ⟨11, _⟩ => ⟨S4x4096x1, .f32⟩
  | .hbm, ⟨12, _⟩ => ⟨S4x4096x1, .f32⟩
  | .hbm, ⟨13, _⟩ => ⟨S4x4096x1, .f32⟩
  | .hbm, ⟨14, _⟩ => ⟨S4x4096x2048, .f32⟩
  | .hbm, ⟨15, _⟩ => ⟨S4x4096x2048, .f32⟩
  | .hbm, ⟨16, _⟩ => ⟨S1x1x2048, .f32⟩
  | .hbm, ⟨17, _⟩ => ⟨S4x4096x2048, .f32⟩
  | .hbm, ⟨18, _⟩ => ⟨S4x4096x2048, .f32⟩
  | .hbm, ⟨19, _⟩ => ⟨S4x4096x2048, .f32⟩
  | .hbm, ⟨20, _⟩ => ⟨S_, .f32⟩
  | .hbm, ⟨21, _⟩ => ⟨S4x4096, .f32⟩
  | .hbm, ⟨22, _⟩ => ⟨S4x4096x1, .f32⟩
  | .hbm, ⟨23, _⟩ => ⟨S_, .f32⟩
  | .hbm, ⟨24, _⟩ => ⟨S4x4096x1, .f32⟩
  | .hbm, ⟨25, _⟩ => ⟨S4x4096x1, .f32⟩
  | .hbm, ⟨26, _⟩ => ⟨S_, .f32⟩
  | .hbm, ⟨27, _⟩ => ⟨S4x4096x1, .f32⟩
  | .hbm, ⟨28, _⟩ => ⟨S4x4096x1, .f32⟩
  | .hbm, ⟨29, _⟩ => ⟨S4x4096x2048, .f32⟩
  | .hbm, ⟨30, _⟩ => ⟨S4x4096x2048, .f32⟩
  | .hbm, ⟨31, _⟩ => ⟨S4x4096x2048, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S4x4096x2048, .f32⟩
  | .hbm, ⟨36, _⟩ => ⟨S4x4096x2048, .f32⟩
  | .hbm, ⟨37, _⟩ => ⟨S_, .f32⟩
  | .hbm, ⟨38, _⟩ => ⟨S4x4096x2048, .f32⟩
  | .hbm, ⟨39, _⟩ => ⟨S4x4096x2048, .f32⟩
  | .hbm, ⟨40, _⟩ => ⟨S4x4096x2048, .f32⟩
  | .hbm, ⟨41, _⟩ => ⟨S4x4096x2048, .f32⟩
  | .hbm, ⟨42, _⟩ => ⟨S4x4096x2048, .f32⟩
  | .hbm, ⟨43, _⟩ => ⟨S4x4096x2048, .f32⟩
  | .hbm, ⟨44, _⟩ => ⟨S8192x2048, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S8192x2048, .f32⟩
  | .hbm, ⟨54, _⟩ => ⟨S8192x2048, .f32⟩
  | .hbm, ⟨55, _⟩ => ⟨S8192x2048, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S8192x2048, .f32⟩
  | .hbm, ⟨60, _⟩ => ⟨S8192x2048, .f32⟩
  | .hbm, ⟨61, _⟩ => ⟨S_, .f32⟩
  | .hbm, ⟨62, _⟩ => ⟨S8192x2048, .f32⟩
  | .hbm, ⟨63, _⟩ => ⟨S8192x2048, .f32⟩
  | .hbm, ⟨64, _⟩ => ⟨S8192x2048, .f32⟩
  | .hbm, ⟨65, _⟩ => ⟨S8192x2048, .f32⟩
  | .hbm, ⟨66, _⟩ => ⟨S8192x2048, .f32⟩
  | .hbm, ⟨67, _⟩ => ⟨S8192x2048, .f32⟩
  | .hbm, ⟨68, _⟩ => ⟨S4x4096x8192, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_cst_4 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_5 : Ref sig .tc := ⟨.hbm, 32, rfl⟩
abbrev main_cst_6 : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_7 : Ref sig .tc := ⟨.hbm, 45, rfl⟩
abbrev main_v29 : Ref sig .tc := ⟨.hbm, 46, rfl⟩
abbrev main_cst_8 : Ref sig .tc := ⟨.hbm, 47, rfl⟩
abbrev main_v30 : Ref sig .tc := ⟨.hbm, 48, rfl⟩
abbrev main_cst_9 : Ref sig .tc := ⟨.hbm, 49, rfl⟩
abbrev main_v31 : Ref sig .tc := ⟨.hbm, 50, rfl⟩
abbrev main_cst_10 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_11 : Ref sig .tc := ⟨.hbm, 56, rfl⟩
abbrev main_cst_12 : Ref sig .tc := ⟨.hbm, 57, rfl⟩
abbrev main_call3_v0 : Ref sig .tc := ⟨.hbm, 58, rfl⟩
abbrev main_call3_v1 : Ref sig .tc := ⟨.hbm, 59, rfl⟩
abbrev main_call3_v2 : Ref sig .tc := ⟨.hbm, 60, rfl⟩
abbrev main_call3_v3 : Ref sig .tc := ⟨.hbm, 61, rfl⟩
abbrev main_call3_v4 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩

abbrev nD : Nat := 1
abbrev τ : Topo := Topo.v7x

variable {F : FTy → Type} [FloatOps F]

class Facts₀ : Prop where
  reducesTo_S4x4096x2048_S4x4096_d2 : S4x4096x2048.ReducesTo [2] S4x4096
  h_S_ : 0 < S_.numel
  bcast_S4x4096_S4x4096x1_0_1 : S4x4096.BroadcastsInDim S4x4096x1 (![0, 1] : Fin 2 → Fin S4x4096x1.rank)
  bcast_S_S4x4096x1 : S_.BroadcastsInDim S4x4096x1 (![] : Fin 0 → Fin S4x4096x1.rank)
  bcast_S4x4096x1_S4x4096x2048_0_1_2 : S4x4096x1.BroadcastsInDim S4x4096x2048 (![0, 1, 2] : Fin 3 → Fin S4x4096x2048.rank)
  bcast_S2048_S1x1x2048_2 : S2048.BroadcastsInDim S1x1x2048 (![2] : Fin 1 → Fin S1x1x2048.rank)
  bcast_S1x1x2048_S4x4096x2048_0_1_2 : S1x1x2048.BroadcastsInDim S4x4096x2048 (![0, 1, 2] : Fin 3 → Fin S4x4096x2048.rank)
  bcast_S_S4x4096x2048 : S_.BroadcastsInDim S4x4096x2048 (![] : Fin 0 → Fin S4x4096x2048.rank)
  reducesTo_S8192x2048_S_d0_1 : S8192x2048.ReducesTo [0, 1] S_
  bcast_S_S8192x2048 : S_.BroadcastsInDim S8192x2048 (![] : Fin 0 → Fin S8192x2048.rank)
  dot_S4x4096x2048_S8192x2048_S4x4096x8192_2_1_01_0_n_n_wf : DotDims.WF S4x4096x2048 S8192x2048 S4x4096x8192 [2] [1] [0, 1] [0] [] []

variable [Facts₀]

def dot_S4x4096x2048_S8192x2048_S4x4096x8192_2_1_01_0_n_n : DotDims S4x4096x2048 S8192x2048 S4x4096x8192 where
  lhsContracting := [2]
  rhsContracting := [1]
  lhsNonContracting := [0, 1]
  rhsNonContracting := [0]
  lhsBatch := []
  rhsBatch := []
  wf := dot_S4x4096x2048_S8192x2048_S4x4096x8192_2_1_01_0_n_n_wf

class Facts : Prop extends Facts₀ where

variable [Facts]
-- ==== Proof.FiniteInputs.lean ====
/-
  What the precondition says: every entry of the three argument arrays is a real number.

  The printed predicate is the conjunction of three tests "all |a| < +∞", one per array. An extended real whose
  magnitude max a (−a) is below +∞ is neither infinity, so it is a real.
-/
import proofs.«113048_j64570538328617_1_alg».proof.Pre_finite_inputs
import proofs.«113048_j64570538328617_1_alg».proof.Proof.Gen.Pre_finite_inputs
import Idealize.ShloMosaic.Lib.ReduceAll
import Idealize.ShloMosaic.Lib.ValueIdx
import Idealize.ShloMosaic.PureOps.Ideal.Laws

noncomputable section

namespace Cert.Pre_finite_inputs.Decode

open Cert.Pre_finite_inputs Idealize.ShloMosaic

instance : Subsingleton S_.Idx := ⟨fun a b => funext fun d => d.elim0⟩

/-- The word of +∞ denotes the top of the extended reals. -/
theorem ofBits_inf : Ideal.ofBits .f32 0x7F800000#32 = ⊤ := by
  simp [Ideal.ofBits, Ideal.ieee]

/-- An extended real whose magnitude compares below +∞ is a real. -/
theorem real_of_abs_lt_inf (a : EReal)
    (h : Ideal.cmp .olt (max a (-a)) (Ideal.ofBits .f32 0x7F800000#32) = 1#1) : ∃ r : ℝ, a = (r : EReal) := by
  rw [ofBits_inf] at h
  induction a using EReal.rec with
  | bot => simp [Ideal.cmp] at h
  | top => simp [Ideal.cmp] at h
  | coe r => exact ⟨r, rfl⟩

/-- Under the precondition every entry of the tokens, of the gain and of the weights is real. -/
theorem real_of_pre (x : FVec Ideal S4x4096x2048 .f32) (g : FVec Ideal S2048 .f32) (w : FVec Ideal S8192x2048 .f32)
    (h : fn (F := Ideal) x g w = fun _ => 1#1) :
    (∀ i, ∃ r : ℝ, x i = (r : EReal)) ∧ (∀ i, ∃ r : ℝ, g i = (r : EReal)) ∧ (∀ i, ∃ r : ℝ, w i = (r : EReal)) := by
  have h0 := congrFun h ValueIdx.ix0
  dsimp only [fn] at h0
  obtain ⟨h01, hw⟩ := IntOp.andi_eq_one.1 h0
  obtain ⟨hx, hg⟩ := IntOp.andi_eq_one.1 h01
  refine ⟨fun i => ?_, fun i => ?_, fun i => ?_⟩
  · exact real_of_abs_lt_inf _ (Host.reduce_andi_all _ _ _ _ _ hx i)
  · exact real_of_abs_lt_inf _ (Host.reduce_andi_all _ _ _ _ _ hg i)
  · exact real_of_abs_lt_inf _ (Host.reduce_andi_all _ _ _ _ _ hw i)

end Cert.Pre_finite_inputs.Decode

end
-- ==== Proof.RowQuant.lean ====
/-
  One token's activation quantisation on the extended reals, and the two facts about it that the
  comparison of the two programs rests on.

  A token is a row r of 2048 features; g is the gain. With the float words read as the extended reals
  they denote:
    invRms r    = rsqrt (mean of r² + ε₁)                  (the reciprocal root mean square)
    normed r g  = r · invRms r · g                          (the normalised row)
    absMax r g  = max over the row of |normed r g|          (folded from −∞)
    actScale    = 127 / (absMax + ε₂)
    actQuant k  = clamp (roundeven (normed k · actScale)) to [−128, 127], divided by actScale.
  Facts: a row of real numbers has a real normalised row (the mean of squares is a nonnegative real, ε₁ a
  positive one, so the root is of a positive real), and for a real a the straight-through expression
  a + (b − a) is b, whatever b is.
-/
import Idealize.ShloMosaic.PureOps.Ideal.Laws
import Idealize.ShloMosaic.Lib.ValueIdx

noncomputable section

namespace BitLinear

open Idealize.ShloMosaic

/-! ## The row functions -/

/-- The reciprocal root mean square of a row: rsqrt (Σ r² / 2048 + ε₁). -/
def invRms (r : Fin 2048 → EReal) : EReal :=
  Ideal.rsqrt (Ideal.div (∑ k, r k * r k) (Ideal.ofBits .f32 0x45000000#32) + Ideal.ofBits .f32 0x358637BD#32)

/-- The normalised row, scaled by the gain. -/
def normed (r g : Fin 2048 → EReal) (k : Fin 2048) : EReal := r k * invRms r * g k

/-- The largest magnitude of the normalised row, folded from −∞. -/
def absMax (r g : Fin 2048 → EReal) : EReal :=
  (Finset.univ : Finset (Fin 2048)).fold max (Ideal.ofBits .f32 0xFF800000#32) fun k => max (normed r g k) (-normed r g k)

/-- The row's quantisation scale, 127 / (absMax + ε₂). -/
def actScale (r g : Fin 2048 → EReal) : EReal :=
  Ideal.div (Ideal.ofBits .f32 0x42FE0000#32) (absMax r g + Ideal.ofBits .f32 0x3727C5AC#32)

/-- The quantised row: scaled, rounded to the nearest integer (ties to even), clamped to [−128, 127], scaled back. -/
def actQuant (r g : Fin 2048 → EReal) (k : Fin 2048) : EReal :=
  Ideal.div (min (Ideal.ofBits .f32 0x42FE0000#32) (max (Ideal.ofBits .f32 0xC3000000#32)
    (Ideal.liftRound Ideal.roundHalfEven (normed r g k * actScale r g)))) (actScale r g)

/-! ## The weights -/

/-- The weights' one scale for the whole matrix: 1 / (mean |w| + ε₂), the mean over all 8192 · 2048 entries. -/
def wScale (w : (⟨2, ![8192, 2048]⟩ : Shape).Idx → EReal) : EReal :=
  Ideal.div (Ideal.ofBits .f32 0x3F800000#32)
    (Ideal.div (Ideal.ofBits .f32 0x00000000#32 + ∑ j, max (w j) (-w j)) (Ideal.ofBits .f32 0x4B800000#32) + Ideal.ofBits .f32 0x3727C5AC#32)

/-- The ternary weights: scaled, rounded (ties to even), clamped to [−1, 1], scaled back. -/
def wQuant (w : (⟨2, ![8192, 2048]⟩ : Shape).Idx → EReal) (i : (⟨2, ![8192, 2048]⟩ : Shape).Idx) : EReal :=
  Ideal.div (min (Ideal.ofBits .f32 0x3F800000#32) (max (Ideal.ofBits .f32 0xBF800000#32)
    (Ideal.liftRound Ideal.roundHalfEven (w i * wScale w)))) (wScale w)

/-! ## The layer -/

/-- The layer's result at batch b, position s and output feature f: the quantised token (b, s) against row f of the
    ternary weights, summed over the 2048 features. -/
def result (x : (⟨3, ![4, 4096, 2048]⟩ : Shape).Idx → EReal) (g : (⟨1, ![2048]⟩ : Shape).Idx → EReal)
    (w : (⟨2, ![8192, 2048]⟩ : Shape).Idx → EReal) : (⟨3, ![4, 4096, 8192]⟩ : Shape).Idx → EReal := fun i =>
  ∑ k : Fin 2048, actQuant (fun k' => x (ValueIdx.ix3 (i 0) (i 1) k')) (fun k' => g (ValueIdx.ix1 k')) k
    * wQuant w (ValueIdx.ix2 (i 2) k)

/-- The same over tokens laid out as the 16384 rows of a matrix, the gain as a one-row matrix and the weights W already
    quantised: entry (R, f) is the quantised row R against row f of W. -/
def result2 (X : (⟨2, ![16384, 2048]⟩ : Shape).Idx → EReal) (G : (⟨2, ![1, 2048]⟩ : Shape).Idx → EReal)
    (W : (⟨2, ![8192, 2048]⟩ : Shape).Idx → EReal) : (⟨2, ![16384, 8192]⟩ : Shape).Idx → EReal := fun j =>
  ∑ k : Fin 2048, actQuant (fun k' => X (ValueIdx.ix2 (j 0) k')) (fun k' => G (ValueIdx.ix2 (0 : Fin 1) k')) k
    * W (ValueIdx.ix2 (j 1) k)

/-- The layer's result at explicit coordinates. -/
theorem result_apply (x : (⟨3, ![4, 4096, 2048]⟩ : Shape).Idx → EReal) (g : (⟨1, ![2048]⟩ : Shape).Idx → EReal)
    (w : (⟨2, ![8192, 2048]⟩ : Shape).Idx → EReal) (b : Fin 4) (s : Fin 4096) (f : Fin 8192) :
    result x g w (ValueIdx.ix3 b s f)
      = ∑ k : Fin 2048, actQuant (fun k' => x (ValueIdx.ix3 b s k')) (fun k' => g (ValueIdx.ix1 k')) k * wQuant w (ValueIdx.ix2 f k) := rfl

/-- The matrix form at explicit coordinates. -/
theorem result2_apply (X : (⟨2, ![16384, 2048]⟩ : Shape).Idx → EReal) (G : (⟨2, ![1, 2048]⟩ : Shape).Idx → EReal)
    (W : (⟨2, ![8192, 2048]⟩ : Shape).Idx → EReal) (R : Fin 16384) (f : Fin 8192) :
    result2 X G W (ValueIdx.ix2 R f)
      = ∑ k : Fin 2048, actQuant (fun k' => X (ValueIdx.ix2 R k')) (fun k' => G (ValueIdx.ix2 (0 : Fin 1) k')) k * W (ValueIdx.ix2 f k) := rfl

/-! ## The straight-through expression -/

/-- For a real a, a + (b − a) = b on the extended reals: at b = ±∞ both sides are that infinity. -/
theorem add_sub_self_of_real (a b : EReal) (ha : ∃ x : ℝ, a = (x : EReal)) : a + (b - a) = b := by
  obtain ⟨x, rfl⟩ := ha
  induction b using EReal.rec with
  | bot => simp
  | top => simp
  | coe y => norm_cast; ring

/-! ## A real row has a real normalised row -/

/-- A finite sum of reals, summed as extended reals, is the real sum. -/
theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The word of 2048.0 denotes 2048. -/
theorem ofBits_2048 : Ideal.ofBits .f32 0x45000000#32 = ((2048 : ℝ) : EReal) := by
  simp [Ideal.ofBits, Ideal.ieee, -EReal.coe_mul]; norm_num

/-- The word of ε₁ (the float nearest 1e-6) denotes a positive real. -/
theorem ofBits_eps1_pos : ∃ e : ℝ, 0 < e ∧ Ideal.ofBits .f32 0x358637BD#32 = (e : EReal) := by
  refine ⟨8796093 * (2 : ℝ) ^ (-43 : ℤ), by positivity, ?_⟩
  simp [Ideal.ofBits, Ideal.ieee, -EReal.coe_mul]

/-- The reciprocal root mean square of a real row is real. -/
theorem invRms_real (r : Fin 2048 → EReal) (hr : ∀ k, ∃ x : ℝ, r k = (x : EReal)) : ∃ ρ : ℝ, invRms r = (ρ : EReal) := by
  choose x hx using hr
  obtain ⟨e, he, hε⟩ := ofBits_eps1_pos
  have hsum : (∑ k, r k * r k) = ((∑ k, x k * x k : ℝ) : EReal) := by
    rw [← coe_sum]; exact Finset.sum_congr rfl fun k _ => by rw [hx k, EReal.coe_mul]
  have hpos : 0 < (∑ k, x k * x k) * (1 / 2048) + e :=
    add_pos_of_nonneg_of_pos (mul_nonneg (Finset.sum_nonneg fun k _ => mul_self_nonneg _) (by norm_num)) he
  unfold invRms
  rw [hsum, ofBits_2048, Ideal.div_coe (by norm_num : (2048 : ℝ) ≠ 0), hε, ← EReal.coe_mul, ← EReal.coe_add, Ideal.rsqrt_coe,
    if_neg (not_lt.mpr hpos.le), if_neg hpos.ne']
  exact ⟨_, rfl⟩

/-- So the normalised row of a real row under a real gain is real. -/
theorem normed_real (r g : Fin 2048 → EReal) (hr : ∀ k, ∃ x : ℝ, r k = (x : EReal)) (hg : ∀ k, ∃ y : ℝ, g k = (y : EReal))
    (k : Fin 2048) : ∃ z : ℝ, normed r g k = (z : EReal) := by
  obtain ⟨ρ, hρ⟩ := invRms_real r hr
  obtain ⟨x, hx⟩ := hr k
  obtain ⟨y, hy⟩ := hg k
  exact ⟨x * ρ * y, by unfold normed; rw [hx, hρ, hy, EReal.coe_mul, EReal.coe_mul]⟩

end BitLinear

end
-- ==== Proof.RefValue.lean ====
/-
  The reference program's result as the layer's function of its three arguments.

  Read one operation at a time, the reference normalises every token (b, s) of x, takes the token's largest
  magnitude, scales, rounds, clamps and scales back — the row functions of RowQuant at the row x[b, s, ·] —, does the
  same to the weights with their one scale, wraps each of the two in the straight-through expression a + (q − a),
  and contracts the 2048 features. For real inputs the normalised token is real (RowQuant.normed_real) and so is
  each weight, so both straight-through expressions are their quantised operand, and the contraction is
  BitLinear.result.
-/
import proofs.«113048_j64570538328617_1_alg».proof.Proof.Gen.ReferenceIdeal.Read
import proofs.«113048_j64570538328617_1_alg».proof.Proof.RowQuant

noncomputable section

namespace Cert.ReferenceIdeal.RefValue

open Cert.ReferenceIdeal Cert.ReferenceIdeal.Gen Cert.ReferenceIdeal.Read Idealize.ShloMosaic Idealize.ShloMosaic.ValueIdx BitLinear

variable (x : (⟨S4x4096x2048, .f32⟩ : BufTy).Contents (Elt Ideal)) (g : (⟨S2048, .f32⟩ : BufTy).Contents (Elt Ideal))
  (w : (⟨S8192x2048, .f32⟩ : BufTy).Contents (Elt Ideal))

/-- Token (b, s) of x as a row of 2048 features. -/
abbrev row (b : Fin 4) (s : Fin 4096) : Fin 2048 → EReal := fun k => x (ix3 b s k)
/-- The gain as a row. -/
abbrev gain : Fin 2048 → EReal := fun k => g (ix1 k)

/-! ## Where the printed index maps land -/

theorem idx_square (b : Fin 4) (s : Fin 4096) (k k' : Fin 2048) :
    idx_main_v1 (idx_main_v2 (idx_main_v8 (ix3 b s k))) k' = ix3 b s k' :=
  funext fun a => Fin.ext (by match a with | ⟨0, _⟩ => rfl | ⟨1, _⟩ => rfl | ⟨2, _⟩ => rfl)

theorem idx_gain (b : Fin 4) (s : Fin 4096) (k : Fin 2048) : idx_main_v10 (idx_main_v11 (ix3 b s k)) = ix1 k :=
  funext fun a => Fin.ext (by match a with | ⟨0, _⟩ => rfl)

theorem idx_col20 (b : Fin 4) (s : Fin 4096) (k : Fin 2048) : idx_main_v20 (ix3 b s k) = ix3 b s (0 : Fin 1) :=
  funext fun a => Fin.ext (by match a with | ⟨0, _⟩ => rfl | ⟨1, _⟩ => rfl | ⟨2, _⟩ => rfl)

theorem idx_col24 (b : Fin 4) (s : Fin 4096) (k : Fin 2048) : idx_main_v24 (ix3 b s k) = ix3 b s (0 : Fin 1) :=
  funext fun a => Fin.ext (by match a with | ⟨0, _⟩ => rfl | ⟨1, _⟩ => rfl | ⟨2, _⟩ => rfl)

theorem idx_token (b : Fin 4) (s : Fin 4096) : idx_main_v15 (ix3 b s (0 : Fin 1)) = ix2 b s :=
  funext fun a => Fin.ext (by match a with | ⟨0, _⟩ => rfl | ⟨1, _⟩ => rfl)

/-- Reducing the feature axis keeps the token's two coordinates. -/
theorem reduces_features : S4x4096x2048.Reduces [2] S4x4096 := by decide

theorem lift_token (b : Fin 4) (s : Fin 4096) (k : Fin 2048) :
    reduces_features.lift (ix2 b s) k = ix3 b s k :=
  funext fun a => Fin.ext (by match a with | ⟨0, _⟩ => rfl | ⟨1, _⟩ => rfl | ⟨2, _⟩ => rfl)

/-! ## The activations -/

/-- The normalised, gained token. -/
theorem normed_apply (b : Fin 4) (s : Fin 4096) (k : Fin 2048) :
    val_main_v12 (F := Ideal) x g (ix3 b s k) = normed (row x b s) (gain g) k := by
  rw [val_main_v12_apply, val_main_v9_apply, val_main_v8_apply, val_main_v7_apply, val_main_v6_apply, val_main_v4_apply,
    val_main_v2_apply, val_main_v1_apply, val_main_v3_apply, val_main_cst_0_apply, val_main_v5_apply, val_main_cst_1_apply,
    val_main_cst_apply, val_main_v11_apply, val_main_v10_apply]
  simp only [val_main_v0_apply, idx_square, idx_gain, Ideal.mulf_def, Ideal.addf_def, Ideal.hostDivf_def,
    Ideal.hostUnary_rsqrt_def, Ideal.ofBits_def, Ideal.ofBits_zero_f32, zero_add]
  rfl

/-- The token's largest magnitude: the host's max-reduce over the feature axis is the fold over that axis. -/
theorem absMax_apply (b : Fin 4) (s : Fin 4096) :
    val_main_v14 (F := Ideal) x g (ix2 b s) = absMax (row x b s) (gain g) := by
  unfold val_main_v14
  rw [Host.reduce_eq_fold_single FloatOps.maximumf _ _ reducesTo_S4x4096x2048_S4x4096_d2 reduces_features h_S_]
  unfold absMax
  show Finset.fold max (Ideal.ofBits .f32 0xFF800000#32) _ _ = Finset.fold max _ _ _
  refine Finset.fold_congr fun (k : Fin 2048) _ => ?_
  show val_main_v13 (F := Ideal) x g (reduces_features.lift (ix2 b s) k) = _
  rw [lift_token b s k, val_main_v13_apply, normed_apply]
  rfl

/-- The token's scale. -/
theorem actScale_apply (b : Fin 4) (s : Fin 4096) :
    val_main_v19 (F := Ideal) x g (ix3 b s (0 : Fin 1)) = actScale (row x b s) (gain g) := by
  rw [val_main_v19_apply, val_main_v18_apply, val_main_cst_4_apply, val_main_v17_apply, val_main_v15_apply,
    val_main_v16_apply, val_main_cst_3_apply, idx_token, absMax_apply]
  rfl

/-- The quantised token. -/
theorem actQuant_apply (b : Fin 4) (s : Fin 4096) (k : Fin 2048) :
    val_main_v25 (F := Ideal) x g (ix3 b s k) = actQuant (row x b s) (gain g) k := by
  rw [val_main_v25_apply, val_main_v23_apply, val_main_call1_v4_apply, val_main_call1_v3_apply, val_main_cst_6_apply,
    val_main_call1_v2_apply, val_main_call1_v1_apply, val_main_call1_v0_apply, val_main_cst_5_apply, val_main_v22_apply,
    val_main_v21_apply, val_main_v20_apply, val_main_v24_apply, idx_col20, idx_col24, actScale_apply, normed_apply]
  rfl

/-- The straight-through activations of real inputs are the quantised token. -/
theorem ste_act (hx : ∀ i, ∃ r : ℝ, x i = (r : EReal)) (hg : ∀ i, ∃ r : ℝ, g i = (r : EReal))
    (b : Fin 4) (s : Fin 4096) (k : Fin 2048) :
    val_main_v27 (F := Ideal) x g (ix3 b s k) = actQuant (row x b s) (gain g) k := by
  rw [val_main_v27_apply, val_main_v26_apply, actQuant_apply, normed_apply]
  exact add_sub_self_of_real _ _ (normed_real _ _ (fun _ => hx _) (fun _ => hg _) k)

/-! ## The weights -/

/-- The weights' scale. -/
theorem wScale_apply (j : S_.Idx) : val_main_v32 (F := Ideal) w j = wScale w := by
  rw [val_main_v32_apply, val_main_cst_10_apply, val_main_v31_apply, val_main_v30_apply, val_main_v29_apply,
    val_main_cst_7_apply, val_main_cst_8_apply, val_main_cst_9_apply]
  rfl

/-- The ternary weights. -/
theorem wQuant_apply (i : S8192x2048.Idx) : val_main_v38 (F := Ideal) w i = wQuant w i := by
  rw [val_main_v38_apply, val_main_v36_apply, val_main_call3_v4_apply, val_main_call3_v3_apply, val_main_cst_12_apply,
    val_main_call3_v2_apply, val_main_call3_v1_apply, val_main_call3_v0_apply, val_main_cst_11_apply, val_main_v35_apply,
    val_main_v34_apply, val_main_v33_apply, val_main_v37_apply, wScale_apply]
  rfl

/-- The straight-through weights of real weights are the ternary weights. -/
theorem ste_w (hw : ∀ i, ∃ r : ℝ, w i = (r : EReal)) (i : S8192x2048.Idx) : val_main_v40 (F := Ideal) w i = wQuant w i := by
  rw [val_main_v40_apply, val_main_v39_apply, wQuant_apply]
  exact add_sub_self_of_real _ _ (hw i)

/-! ## The result -/

/-- The reference's result, for real inputs, is the layer's function of them. -/
theorem result_eq (hx : ∀ i, ∃ r : ℝ, x i = (r : EReal)) (hg : ∀ i, ∃ r : ℝ, g i = (r : EReal))
    (hw : ∀ i, ∃ r : ℝ, w i = (r : EReal)) : val_main_v41 (F := Ideal) x g w = result x g w := by
  funext i
  obtain ⟨b, s, f, rfl⟩ : ∃ (b : Fin 4) (s : Fin 4096) (f : Fin 8192), i = ix3 b s f := ⟨i 0, i 1, i 2, eq_ix3 i⟩
  rw [val_main_v41_apply, result_apply]
  refine Finset.sum_congr rfl fun k _ => ?_
  have el : lidx_main_v41 (ix3 b s f) k = ix3 b s k :=
    funext fun a => Fin.ext (by match a with | ⟨0, _⟩ => rfl | ⟨1, _⟩ => rfl | ⟨2, _⟩ => rfl)
  have er : ridx_main_v41 (ix3 b s f) k = ix2 f k :=
    funext fun a => Fin.ext (by match a with | ⟨0, _⟩ => rfl | ⟨1, _⟩ => rfl)
  rw [el, er, ste_act x g hx hg, ste_w w hw]

end Cert.ReferenceIdeal.RefValue

end
-- ==== Proof.LibColumnBroadcast.lean ====
/-
  One column broadcast over many: a `[a, 1]` array broadcast to `[a, b]` read at an index. The companion of the
  library's row form (one `[1, b]` row broadcast over `a` rows): there the unit axis is the leading one, here
  the trailing one.
-/
import Idealize.ShloMosaic.Lib.ValueLayout

namespace Idealize.ShloMosaic.ValueIdx

open Idealize.ShloMosaic

variable {α : Type}

/-- A `[a, 1]` array broadcast to `[a, b]` reads, at `(p, c)`, the operand's one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.LibPlainDot.lean ====
/-
  A plain matrix product read at an index.  For the dimension numbers of rows-by-columns (the left operand contracted on
  its second axis, the right on its first, no batch axis) the contraction index is one coordinate k, the left operand is
  read at (r, k) and the right at (k, c): the sum over the contraction shape is the sum over k < K of l[r,k] · r[k,c].
  Both a kernel's matrix unit into a zero accumulator and the host's dot product are this sum at the exact instance.
-/
import Idealize.ShloMosaic.PureOps.Ideal.Laws
import Idealize.ShloMosaic.Lib.ValueIdx

namespace Idealize.ShloMosaic.ValueIdx

open Idealize.ShloMosaic

variable {M K N : ℕ}

/-- The left operand's row is the result's row. -/
theorem plain_lhs_0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column is the contraction coordinate. -/
theorem plain_lhs_1 (i : (⟨2, ![M, N]⟩ : Shape).Idx) (q : (DotDims.plain M K N).contr.Idx) :
    ((DotDims.plain M K N).lhsIdx i q 1).val = (q ⟨0, by rw [DotDims.rank_contr]; exact Nat.one_pos⟩).val :=
  (DotDims.plain M K N).lhsIdx_val_of_single rfl i q

/-- The right operand's row is the contraction coordinate. -/
theorem plain_rhs_0 (i : (⟨2, ![M, N]⟩ : Shape).Idx) (q : (DotDims.plain M K N).contr.Idx) :
    ((DotDims.plain M K N).rhsIdx i q 0).val = (q ⟨0, by rw [DotDims.rank_contr]; exact Nat.one_pos⟩).val :=
  (DotDims.plain M K N).rhsIdx_val_of_single rfl i q

/-- The right operand's column is the result's column. -/
theorem plain_rhs_1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The contraction sum of a plain product, over the one coordinate k < K. -/
theorem plain_dot_sum (l : (⟨2, ![M, K]⟩ : Shape).Idx → EReal) (r : (⟨2, ![K, N]⟩ : Shape).Idx → EReal)
    (i : (⟨2, ![M, N]⟩ : Shape).Idx) :
    ∑ k : (DotDims.plain M K N).contr.Idx, l ((DotDims.plain M K N).lhsIdx i k) * r ((DotDims.plain M K N).rhsIdx i k)
      = ∑ k : Fin K, l (ix2 (i 0) k) * r (ix2 k (i 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx i ((contrEquiv1 (DotDims.plain M K N) K rfl rfl).symm k) = ix2 (i 0) k :=
    funext fun a => Fin.ext (by
      match a with
      | ⟨0, _⟩ => exact plain_lhs_0 _ _
      | ⟨1, _⟩ => exact (plain_lhs_1 _ _).trans hk)
  have er : (DotDims.plain M K N).rhsIdx i ((contrEquiv1 (DotDims.plain M K N) K rfl rfl).symm k) = ix2 k (i 1) :=
    funext fun a => Fin.ext (by
      match a with
      | ⟨0, _⟩ => exact (plain_rhs_0 _ _).trans hk
      | ⟨1, _⟩ => exact plain_rhs_1 _ _)
  exact congrArg₂ (· * ·) (congrArg l el) (congrArg r er)

/-- A kernel's matrix unit into the zero accumulator, at the exact instance, read at an index. -/
theorem plain_matmul_zero_apply {φ₁ φ₂ : FTy} (prec : Option ContractPrecision)
    (l : FVec Ideal (⟨2, ![M, K]⟩ : Shape) φ₁) (r : FVec Ideal (⟨2, ![K, N]⟩ : Shape) φ₂) (i : (⟨2, ![M, N]⟩ : Shape).Idx) :
    FloatOps.matmul (DotDims.plain M K N) prec l r (constant (⟨2, ![M, N]⟩ : Shape) .f32 0x00000000#32) i
      = ∑ k : Fin K, l (ix2 (i 0) k) * r (ix2 k (i 1)) :=
  (Ideal.matmul_constant_zero_apply _ prec l r i).trans (plain_dot_sum l r i)

/-- The host's dot product, at the exact instance, read at an index. -/
theorem plain_dotGeneral_apply {φ₁ φ₂ : FTy} (prec : Option ContractPrecision) (sched : HostSchedule)
    (l : FVec Ideal (⟨2, ![M, K]⟩ : Shape) φ₁) (r : FVec Ideal (⟨2, ![K, N]⟩ : Shape) φ₂) (i : (⟨2, ![M, N]⟩ : Shape).Idx) :
    FloatOps.dotGeneral (DotDims.plain M K N) prec sched l r i = ∑ k : Fin K, l (ix2 (i 0) k) * r (ix2 k (i 1)) :=
  (Ideal.dotGeneral_apply _ prec sched l r i).trans (plain_dot_sum l r i)

end Idealize.ShloMosaic.ValueIdx
-- ==== Proof.KernelBlock.lean ====
/-
  What the kernel's body stores, entry by entry.

  The body loads a block v of 512 tokens, the gain as one row and a block u of 2048 rows of the quantised weights, and
  stores the product of the block's quantised tokens with the transposed weight block. Read at entry (p, q):
  token p's quantisation (RowQuant's row functions at the row v[p, ·]) against row q of u, summed over the 2048
  features. The row sums and row maxima are the body's lane reductions, each column [512, 1] is broadcast back over
  its row, the narrowing to bf16 is the identity on extended reals, and the matrix unit into a zero accumulator is
  the plain sum of products.
-/
import proofs.«113048_j64570538328617_1_alg».proof.Proof.Gen.KernelIdeal.Skeleton
import proofs.«113048_j64570538328617_1_alg».proof.Proof.RowQuant
import proofs.«113048_j64570538328617_1_alg».proof.Proof.LibColumnBroadcast
import proofs.«113048_j64570538328617_1_alg».proof.Proof.LibPlainDot
import Idealize.ShloMosaic.Lib.Pipeline.Value
import Idealize.ShloMosaic.Lib.ValueLayout
import Idealize.ShloMosaic.PureOps.Ideal.Laws

noncomputable section

namespace Cert.KernelIdeal.Block

open Cert.KernelIdeal Cert.KernelIdeal.Gen Idealize.ShloMosaic Idealize.ShloMosaic.ValueIdx BitLinear

/-! ## The body's layout operations and reductions at an index -/

/-- A [512] vector cast to a [512, 1] column reads, at (p, u), the vector at p. -/
theorem column_apply (v : FVec Ideal S512 .f32) (h : S512.ShapeCasts S512x1) (p : Fin 512) (u : Fin 1) :
    shapeCast S512x1 v h (ix2 p u) = v (ix1 p) :=
  shapeCast_apply v h _ _ (by
    have hu : u.val = 0 := by omega
    rw [Shape.rowMajor_val_one, Shape.rowMajor_val_two]
    show p.val = p.val * 1 + u.val
    omega)

/-- Reducing the feature axis of a block keeps the token's coordinate. -/
theorem lift_row (h : S512x2048.Reduces [1] S512) (p : Fin 512) (k : Fin 2048) : h.lift (ix1 p) k = ix2 p k :=
  funext fun a => Fin.ext (by match a with | ⟨0, _⟩ => rfl | ⟨1, _⟩ => rfl)

/-- The lane sum of a block at token p: the sum over the row. -/
theorem rowSum_apply (v : FVec Ideal S512x2048 .f32) (h : S512x2048.Reduces [1] S512) (hφ : FKind.Formats .f32)
    (hacc : (0x00000000#32 : BitVec 32) = FKind.add.neutral .f32 hφ) (p : Fin 512) :
    multiReduction .add [1] S512 v 0x00000000#32 h hφ hacc (ix1 p) = ∑ k : Fin 2048, v (ix2 p k) := by
  rw [Ideal.multiReduction_add_single]
  exact Finset.sum_congr rfl fun (k : Fin 2048) _ => congrArg v (lift_row h p k)

/-- The lane maximum of a block at token p: the fold of max over the row, from −∞. -/
theorem rowMax_apply (v : FVec Ideal S512x2048 .f32) (h : S512x2048.Reduces [1] S512) (hφ : FKind.Formats .f32)
    (hacc : (0xFF800000#32 : BitVec 32) = FKind.maximumf.neutral .f32 hφ) (p : Fin 512) :
    multiReduction .maximumf [1] S512 v 0xFF800000#32 h hφ hacc (ix1 p)
      = (Finset.univ : Finset (Fin 2048)).fold max (Ideal.ofBits .f32 0xFF800000#32) fun k => v (ix2 p k) := by
  rw [Ideal.multiReduction_maximumf_single]
  exact Finset.fold_congr fun (k : Fin 2048) _ => congrArg v (lift_row h p k)

/-- The transposed weight block at (k, q) is the block at (q, k). -/
theorem transpose_apply_kq (u : FVec Ideal S2048x2048 .bf16) (h : S2048x2048.Transposes [1, 0] S2048x2048) (k q : Fin 2048) :
    transpose S2048x2048 [1, 0] u h (ix2 k q) = u (ix2 q k) :=
  transpose_apply [1, 0] u h (ix2 k q) (ix2 q k) fun b => match b with | ⟨0, _⟩ => rfl | ⟨1, _⟩ => rfl

/-- The matrix unit into the zero accumulator at (p, q): the sum over the 2048 features of products. -/
theorem matmul_apply_pq (l : FVec Ideal S512x2048 .bf16) (r : FVec Ideal S2048x2048 .bf16) (p : Fin 512) (q : Fin 2048) :
    matmul dot_S512x2048_S2048x2048_S512x2048_1_0_0_1_n_n none l r (constant S512x2048 .f32 0x00000000#32) (ix2 p q)
      = ∑ k : Fin 2048, l (ix2 p k) * r (ix2 k q) :=
  plain_matmul_zero_apply (M := 512) (K := 2048) (N := 2048) none l r (ix2 p q)

theorem rsqrt_apply {s : Shape} (a : FVec Ideal s .f32) (i : s.Idx) : rsqrt a i = Ideal.rsqrt (a i) := rfl
theorem absf_apply {s : Shape} (a : FVec Ideal s .f32) (i : s.Idx) : absf a i = max (a i) (-(a i)) := rfl
theorem roundeven_apply {s : Shape} (a : FVec Ideal s .f32) (i : s.Idx) :
    roundeven a i = Ideal.liftRound Ideal.roundHalfEven (a i) := rfl

/-! ## The body's stages -/

/-- The block's rows normalised and gained. -/
def normBlock (v : FVec Ideal S512x2048 .f32) (gn : FVec Ideal S1x2048 .f32) : FVec Ideal S512x2048 .f32 :=
  mulf (mulf v (broadcastTo S512x2048 (rsqrt (addf (divf (shapeCast S512x1 (multiReduction .add [1] S512 (mulf v v) 0x00000000#32 reduces_S512x2048_S512 (.inl rfl) rfl) shapeCasts_S512_S512x1) (broadcast S512x1 (Scalar.ofBits .f32 0x45000000#32))) (broadcast S512x1 (Scalar.ofBits .f32 0x358637BD#32)))) broadcasts_S512x1_S512x2048))
    (broadcastTo S512x2048 gn broadcasts_S1x2048_S512x2048)

/-- Each row's scale, as a column. -/
def scaleCol (n : FVec Ideal S512x2048 .f32) : FVec Ideal S512x1 .f32 :=
  divf (broadcast S512x1 (Scalar.ofBits .f32 0x42FE0000#32))
    (addf (shapeCast S512x1 (multiReduction .maximumf [1] S512 (absf n) 0xFF800000#32 reduces_S512x2048_S512 (.inl rfl) rfl) shapeCasts_S512_S512x1)
      (broadcast S512x1 (Scalar.ofBits .f32 0x3727C5AC#32)))

/-- The rows scaled, rounded, clamped and scaled back. -/
def quantBlock (n : FVec Ideal S512x2048 .f32) : FVec Ideal S512x2048 .f32 :=
  divf (minimumf (broadcast S512x2048 (Scalar.ofBits .f32 0x42FE0000#32))
      (maximumf (broadcast S512x2048 (Scalar.ofBits .f32 0xC3000000#32))
        (roundeven (mulf n (broadcastTo S512x2048 (scaleCol n) broadcasts_S512x1_S512x2048)))))
    (broadcastTo S512x2048 (scaleCol n) broadcasts_S512x1_S512x2048)

/-- The payload is these stages, then the matrix unit against the transposed weight block. -/
theorem payload_eq (x0 : Vec Ideal S512x2048 .f32) (x1 : Vec Ideal S1x2048 .f32) (x2 : Vec Ideal S2048x2048 .bf16) :
    k0_pay1 (F := Ideal) x0 x1 x2
      = matmul dot_S512x2048_S2048x2048_S512x2048_1_0_0_1_n_n none
          (truncf .bf16 (quantBlock (normBlock (shapeCast S512x2048 x0 shapeCasts_S512x2048_S512x2048) (shapeCast S1x2048 x1 shapeCasts_S1x2048_S1x2048))) bitsLt_bf16_f32)
          (transpose S2048x2048 [1, 0] (shapeCast S2048x2048 x2 shapeCasts_S2048x2048_S2048x2048 : FVec Ideal S2048x2048 .bf16) transposes_S2048x2048_p1_0_S2048x2048)
          (constant S512x2048 .f32 0x00000000#32) := rfl

/-! ## The stages at an index -/

/-- A row's sum of squares, as the column entry. -/
theorem sumSq_apply (v : FVec Ideal S512x2048 .f32) (p : Fin 512) (u : Fin 1) :
    shapeCast S512x1 (multiReduction .add [1] S512 (mulf v v) 0x00000000#32 reduces_S512x2048_S512 (.inl rfl) rfl) shapeCasts_S512_S512x1 (ix2 p u)
      = ∑ k : Fin 2048, v (ix2 p k) * v (ix2 p k) :=
  (column_apply _ _ p u).trans (rowSum_apply (mulf v v) _ _ _ p)

theorem normBlock_apply (v : FVec Ideal S512x2048 .f32) (gn : FVec Ideal S1x2048 .f32) (p : Fin 512) (k : Fin 2048) :
    normBlock v gn (ix2 p k) = normed (fun k' => v (ix2 p k')) (fun k' => gn (ix2 (0 : Fin 1) k')) k := by
  unfold normBlock
  rw [mulf_apply, mulf_apply, broadcastTo_1b_ab_apply, broadcastTo_a1_ab_apply]
  exact congrArg (fun t => v (ix2 p k) * Ideal.rsqrt (Ideal.div t (Ideal.ofBits .f32 0x45000000#32) + Ideal.ofBits .f32 0x358637BD#32)
    * gn (ix2 (0 : Fin 1) k)) (sumSq_apply v p 0)

theorem scaleCol_apply (n : FVec Ideal S512x2048 .f32) (p : Fin 512) (u : Fin 1) :
    scaleCol n (ix2 p u) = Ideal.div (Ideal.ofBits .f32 0x42FE0000#32)
      ((Finset.univ : Finset (Fin 2048)).fold max (Ideal.ofBits .f32 0xFF800000#32) (fun k => max (n (ix2 p k)) (-(n (ix2 p k))))
        + Ideal.ofBits .f32 0x3727C5AC#32) := by
  unfold scaleCol
  rw [divf_apply, addf_apply, column_apply]
  exact congrArg (fun t => Ideal.div (Ideal.ofBits .f32 0x42FE0000#32) (t + Ideal.ofBits .f32 0x3727C5AC#32))
    (rowMax_apply (absf n) _ _ _ p)

theorem quantBlock_apply (n : FVec Ideal S512x2048 .f32) (p : Fin 512) (k : Fin 2048) :
    quantBlock n (ix2 p k) = Ideal.div (min (Ideal.ofBits .f32 0x42FE0000#32) (max (Ideal.ofBits .f32 0xC3000000#32)
      (Ideal.liftRound Ideal.roundHalfEven (n (ix2 p k) * scaleCol n (ix2 p (0 : Fin 1)))))) (scaleCol n (ix2 p (0 : Fin 1))) := by
  unfold quantBlock
  rw [divf_apply, minimumf_apply, maximumf_apply, roundeven_apply, mulf_apply, broadcastTo_a1_ab_apply]
  rfl

/-- A block's quantised entry is the row function of its row. -/
theorem actQuant_block (v : FVec Ideal S512x2048 .f32) (gn : FVec Ideal S1x2048 .f32) (p : Fin 512) (k : Fin 2048) :
    quantBlock (normBlock v gn) (ix2 p k) = actQuant (fun k' => v (ix2 p k')) (fun k' => gn (ix2 (0 : Fin 1) k')) k := by
  rw [quantBlock_apply, scaleCol_apply]
  simp only [normBlock_apply]
  rfl

/-! ## The payload at an entry -/

/-- Entry (p, q) of what the body stores: token p of the block, quantised, against row q of the weight block. -/
theorem payload_apply (x0 : Vec Ideal S512x2048 .f32) (x1 : Vec Ideal S1x2048 .f32) (x2 : Vec Ideal S2048x2048 .bf16)
    (p : Fin 512) (q : Fin 2048) :
    k0_pay1 (F := Ideal) x0 x1 x2 (ix2 p q)
      = ∑ k : Fin 2048, actQuant (fun k' => x0 (ix2 p k')) (fun k' => x1 (ix2 (0 : Fin 1) k')) k * x2 (ix2 q k) := by
  rw [payload_eq]
  simp only [shapeCast_self]
  refine (matmul_apply_pq _ _ p q).trans (Finset.sum_congr rfl fun k _ => ?_)
  rw [truncf_apply, actQuant_block, transpose_apply_kq]

end Cert.KernelIdeal.Block

end
-- ==== Proof.Layout.lean ====
/-
  The two layouts of the layer's result agree.

  The kernel works on the tokens as the 16384 rows of a matrix (row b · 4096 + s is token (b, s)), on the gain as a
  one-row matrix, and returns a [16384, 8192] matrix that the host reshapes to [4, 4096, 8192]. Both reshapes keep
  the row-major position, so entry (b, s, f) of the reshaped result is entry (b · 4096 + s, f) of the matrix, whose
  row is token (b, s).
-/
import proofs.«113048_j64570538328617_1_alg».proof.Proof.RowQuant
import Idealize.ShloMosaic.Lib.Pipeline.Value
import Idealize.ShloMosaic.Lib.ValueLayout

noncomputable section

namespace BitLinear

open Idealize.ShloMosaic Idealize.ShloMosaic.ValueIdx

/-- Row b · 4096 + s of the token matrix is token (b, s). -/
theorem tokens_apply (x : (⟨3, ![4, 4096, 2048]⟩ : Shape).Idx → EReal)
    (h : (⟨3, ![4, 4096, 2048]⟩ : Shape).ShapeCasts ⟨2, ![16384, 2048]⟩) (b : Fin 4) (s : Fin 4096) (R : Fin 16384)
    (hR : R.val = b.val * 4096 + s.val) (k : Fin 2048) :
    shapeCast ⟨2, ![16384, 2048]⟩ x h (ix2 R k) = x (ix3 b s k) :=
  shapeCast_apply x h _ _ (by
    rw [Shape.rowMajor_val_three, Shape.rowMajor_val_two]
    show (b.val * 4096 + s.val) * 2048 + k.val = R.val * 2048 + k.val
    rw [hR])

/-- The matrix form over the reshaped tokens and gain, reshaped to [4, 4096, 8192], is the layer's result. -/
theorem result_reshape (x : (⟨3, ![4, 4096, 2048]⟩ : Shape).Idx → EReal) (g : (⟨1, ![2048]⟩ : Shape).Idx → EReal)
    (w : (⟨2, ![8192, 2048]⟩ : Shape).Idx → EReal)
    (h1 : (⟨3, ![4, 4096, 2048]⟩ : Shape).ShapeCasts ⟨2, ![16384, 2048]⟩)
    (h2 : (⟨1, ![2048]⟩ : Shape).ShapeCasts ⟨2, ![1, 2048]⟩)
    (h3 : (⟨2, ![16384, 8192]⟩ : Shape).ShapeCasts ⟨3, ![4, 4096, 8192]⟩) :
    shapeCast ⟨3, ![4, 4096, 8192]⟩
        (result2 (shapeCast ⟨2, ![16384, 2048]⟩ x h1) (shapeCast ⟨2, ![1, 2048]⟩ g h2) (wQuant w)) h3
      = result x g w := by
  funext i
  obtain ⟨b, s, f, rfl⟩ : ∃ (b : Fin 4) (s : Fin 4096) (f : Fin 8192), i = ix3 b s f := ⟨i 0, i 1, i 2, eq_ix3 i⟩
  have hR : b.val * 4096 + s.val < 16384 := by have := b.isLt; have := s.isLt; omega
  rw [shapeCast_apply _ h3 (ix3 b s f) (ix2 (⟨b.val * 4096 + s.val, hR⟩ : Fin 16384) f) (by
      rw [Shape.rowMajor_val_two, Shape.rowMajor_val_three]
      rfl),
    result2_apply, result_apply]
  simp only [tokens_apply x h1 b s ⟨b.val * 4096 + s.val, hR⟩ rfl, shapeCast_a_1a_apply]

end BitLinear

end
-- ==== Proof.KernelArray.lean ====
/-
  The kernel program's result as the layer's function of its three arguments.

  Before the region the host reshapes the tokens to a [16384, 2048] matrix and the gain to one row, and quantises
  the weights (the same operations the reference applies, read here at an index as RowQuant.wQuant). The region's
  grid is 4 × 32: point (j, i) reads rows 512 i … 512 i + 511 of the token matrix, the gain row, and rows
  2048 j … 2048 j + 2047 of the quantised weights, and writes block (i, j) of the [16384, 8192] result. By
  KernelBlock, entry (p, q) of what it writes is row 512 i + p of the tokens, quantised, against row 2048 j + q of
  the weights: the matrix form BitLinear.result2 restricted to the block. The 128 blocks tile the result, so the
  array ends holding result2 of the three arrays; the host's final reshape makes it BitLinear.result (Layout).
-/
import proofs.«113048_j64570538328617_1_alg».proof.Proof.Gen.KernelIdeal.Frame
import proofs.«113048_j64570538328617_1_alg».proof.Proof.KernelBlock
import proofs.«113048_j64570538328617_1_alg».proof.Proof.Layout
import Idealize.ShloMosaic.Lib.StableHlo.Run
import Idealize.ShloMosaic.Lib.Pipeline.Value

set_option maxRecDepth 16384

noncomputable section

namespace Cert.KernelIdeal.Array

open Cert.KernelIdeal Cert.KernelIdeal.Gen Idealize.ShloMosaic Idealize.ShloMosaic.TcCoe Idealize.SL.Sem
open Idealize.ShloMosaic.StableHlo Idealize.ShloMosaic.ValueIdx BitLinear
open Idealize.ShloMosaic.Pipeline (Dat)

variable (m : (ℓ : Loc nD τ sig) → Buf (Elt Ideal) ℓ) (ρ : Dev nD → PrngReg)

/-! ## The weights the host hands the region -/

/-- The host's scale of the weights, as its operations spell it. -/
def wScaleTerm (w : FVec Ideal S8192x2048 .f32) : FVec Ideal S_ .f32 :=
  Host.divf (constant S_ .f32 0x3F800000#32)
    (addf (Host.divf (Host.reduceAdd (Host.absf w) (constant S_ .f32 0x00000000#32) reducesTo_S8192x2048_S_d0_1 h_S_)
      (constant S_ .f32 0x4B800000#32)) (constant S_ .f32 0x3727C5AC#32))

/-- The host's quantised weights, as its operations spell them (narrowed to bf16 at the end). -/
def wTerm (w : FVec Ideal S8192x2048 .f32) : FVec Ideal S8192x2048 .bf16 :=
  truncf .bf16 (Host.divf
    (minimumf (broadcastInDim S8192x2048 ![] bcast_S_S8192x2048 (id (constant S_ .f32 0x3F800000#32)))
      (maximumf (broadcastInDim S8192x2048 ![] bcast_S_S8192x2048 (id (constant S_ .f32 0xBF800000#32)))
        (Host.roundeven (mulf w (broadcastInDim S8192x2048 ![] bcast_S_S8192x2048 (wScaleTerm w))))))
    (broadcastInDim S8192x2048 ![] bcast_S_S8192x2048 (wScaleTerm w))) bitsLt_bf16_f32

/-- A scalar broadcast over the weights' shape reads the scalar everywhere. -/
theorem splat_apply (v : FVec Ideal S_ .f32) (i : S8192x2048.Idx) :
    broadcastInDim S8192x2048 (![] : Fin 0 → Fin S8192x2048.rank) bcast_S_S8192x2048 v i = v ix0 :=
  broadcastInDim_apply _ bcast_S_S8192x2048 v i ix0 (fun a => a.elim0)

/-- The host's scale is RowQuant's: the sum over both axes is the sum over every entry. -/
theorem wScaleTerm_apply (w : FVec Ideal S8192x2048 .f32) : wScaleTerm w ix0 = wScale w := by
  have e : Host.reduceAdd (F := Ideal) (Host.absf w) (constant S_ .f32 0x00000000#32) reducesTo_S8192x2048_S_d0_1 h_S_ ix0
      = Ideal.ofBits .f32 0x00000000#32 + ∑ j, max (w j) (-w j) := by
    simp only [Host.reduceAdd, Ideal.hostReduceAdd_def]
    exact Ideal.hostReduceAdd_total reducesTo_S8192x2048_S_d0_1 (fun b => b.elim0) _ _ ix0
  unfold wScaleTerm wScale
  exact congrArg (fun t => Ideal.div (Ideal.ofBits .f32 0x3F800000#32)
    (Ideal.div t (Ideal.ofBits .f32 0x4B800000#32) + Ideal.ofBits .f32 0x3727C5AC#32)) e

/-- The host's quantised weights are RowQuant's, entry by entry. -/
theorem wTerm_eq (w : FVec Ideal S8192x2048 .f32) : wTerm w = wQuant w := by
  funext i
  unfold wTerm wQuant
  rw [truncf_apply]
  show Ideal.div (min (broadcastInDim S8192x2048 ![] bcast_S_S8192x2048 (id (constant (F := Ideal) S_ .f32 0x3F800000#32)) i)
    (max (broadcastInDim S8192x2048 ![] bcast_S_S8192x2048 (id (constant (F := Ideal) S_ .f32 0xBF800000#32)) i)
      (Ideal.liftRound Ideal.roundHalfEven (w i * broadcastInDim S8192x2048 ![] bcast_S_S8192x2048 (wScaleTerm w) i))))
    (broadcastInDim S8192x2048 ![] bcast_S_S8192x2048 (wScaleTerm w) i) = _
  rw [splat_apply, splat_apply, splat_apply, wScaleTerm_apply]
  rfl

/-! ## What the host leaves in the three arrays the region reads -/

theorem V_tokens (c : Dev nD) : V m c main_v0
    = shapeCast S16384x2048 (m ((c : Thread nD τ).loc main_arg0) : S4x4096x2048.Idx → EReal) shapeCasts_S4x4096x2048_S16384x2048 := by
  dsimp only [V, V0]
  simp only [hostOps0, hostOps0_1, hostOps0_2, hostOps0_3, hostOps0_4, List.flatten_cons, List.flatten_nil, List.append_nil,
    List.cons_append, List.nil_append]
  after_results
  rfl

theorem V_gain (c : Dev nD) : V m c main_v1
    = shapeCast S1x2048 (m ((c : Thread nD τ).loc main_arg1) : S2048.Idx → EReal) shapeCasts_S2048_S1x2048 := by
  dsimp only [V, V0]
  simp only [hostOps0, hostOps0_1, hostOps0_2, hostOps0_3, hostOps0_4, List.flatten_cons, List.flatten_nil, List.append_nil,
    List.cons_append, List.nil_append]
  after_results
  rfl

theorem V_weights (c : Dev nD) : V m c main_v13 = wTerm (m ((c : Thread nD τ).loc main_arg2)) := by
  dsimp only [V, V0]
  simp only [hostOps0, hostOps0_1, hostOps0_2, hostOps0_3, hostOps0_4, List.flatten_cons, List.flatten_nil, List.append_nil,
    List.cons_append, List.nil_append]
  after_results
  rfl

/-! ## One point's write-back -/

theorem origin : (![0, 0] : Fin 2 → Nat) = fun _ => 0 := funext fun a => by fin_cases a <;> rfl

/-- Where the four windows' blocks sit at a point: the token block and the result block share their row block, the
    weight block's row block is the result's column block, everything else is block 0. -/
theorem block_indices : ∀ t : Fin cfg0.N,
    win0_0.index t (0 : Fin 2) = win0_3.index t (0 : Fin 2) ∧ win0_0.index t (1 : Fin 2) = 0
    ∧ win0_1.index t (0 : Fin 2) = 0 ∧ win0_1.index t (1 : Fin 2) = 0
    ∧ win0_2.index t (0 : Fin 2) = win0_3.index t (1 : Fin 2) ∧ win0_2.index t (1 : Fin 2) = 0
    ∧ win0_3.index t (0 : Fin 2) ≤ 31 ∧ win0_3.index t (1 : Fin 2) ≤ 3 :=
  (by decide +kernel : ∀ t : Fin grid0.N, _)

/-- Every block of the result is some point's. -/
theorem block_onto : ∀ (q0 : Fin 32) (q1 : Fin 4), ∃ t : Fin cfg0.N, win0_3.index t = ![q0.val, q1.val] :=
  (by decide +kernel : ∀ (q0 : Fin 32) (q1 : Fin 4), ∃ t : Fin grid0.N, win0_3.index t = ![q0.val, q1.val])

/-- An entry of a stored block is the matrix form at the array index under it, given that the loaded blocks are the
    rows of the three arrays under that index. -/
theorem block_entry (X : FVec Ideal S16384x2048 .f32) (G : FVec Ideal S1x2048 .f32) (W : FVec Ideal S8192x2048 .bf16)
    (x0 : Vec Ideal S512x2048 .f32) (x1 : Vec Ideal S1x2048 .f32) (x2 : Vec Ideal S2048x2048 .bf16)
    (j : S512x2048.Idx) (i : S16384x8192.Idx)
    (h0 : ∀ k : Fin 2048, x0 (ix2 (j 0) k) = X (ix2 (i 0) k))
    (h1 : ∀ k : Fin 2048, x1 (ix2 (0 : Fin 1) k) = G (ix2 (0 : Fin 1) k))
    (h2 : ∀ k : Fin 2048, x2 (ix2 (j 1) k) = W (ix2 (i 1) k)) :
    k0_pay1 (F := Ideal) x0 x1 x2 j = result2 X G W i := by
  obtain ⟨p, q, rfl⟩ : ∃ (p : Fin 512) (q : Fin 2048), j = ix2 p q := ⟨j 0, j 1, eq_ix2 j⟩
  obtain ⟨R, f, rfl⟩ : ∃ (R : Fin 16384) (f : Fin 8192), i = ix2 R f := ⟨i 0, i 1, eq_ix2 i⟩
  rw [Block.payload_apply, result2_apply]
  have e0 : (fun k' => x0 (ix2 p k')) = fun k' => X (ix2 R k') := funext h0
  have e1 : (fun k' => x1 (ix2 (0 : Fin 1) k')) = fun k' => G (ix2 (0 : Fin 1) k') := funext h1
  rw [e0, e1]
  exact Finset.sum_congr rfl fun k _ => congrArg (_ * ·) (h2 k)

/-- WHAT POINT t WRITES BACK is block t of the matrix form of the three arrays as the region finds them. -/
theorem flushed_eq (c : Dev nD) (t : Fin cfg0.N) :
    (dats m 0 c).flushed 3 t
      = ((cfg0.win 3).blk t).view.read (Elt Ideal) (result2 (V m c main_v0) (V m c main_v1) (V m c main_v13)) := by
  show (cfg0.win 3).cut (grid0.coords t) ((dats m 0 c).after 3 t) = _
  rw [after0_3]
  unfold out0_3
  rw [View.canon_unit_zero origin]
  simp only [View.ld_unit_zero (S := S512x2048) origin, View.ld_unit_zero (S := S1x2048) origin,
    View.ld_unit_zero (S := S2048x2048) origin]
  obtain ⟨e0, e1, e2, e3, e4, e5, e6, e7⟩ := block_indices t
  funext j
  show k0_pay1 (F := Ideal) (iblk m c 0 t) (iblk m c 1 t) (iblk m c 2 t) j
    = result2 (V m c main_v0) (V m c main_v1) (V m c main_v13) (((cfg0.win 3).blk t).view.emb j)
  refine block_entry _ _ _ _ _ _ j _ (fun k => ?_) (fun k => ?_) (fun k => ?_)
  · show V m c main_v0 (((cfg0.win 0).blk t).view.emb (ix2 (j 0) k)) = V m c main_v0 (ix2 ((((cfg0.win 3).blk t).view.emb j) 0) k)
    refine congrArg (V m c main_v0) (funext fun a => Fin.ext ?_)
    match a with
    | ⟨0, _⟩ => show win0_0.index t (0 : Fin 2) * 512 + 1 * (j 0).val = win0_3.index t (0 : Fin 2) * 512 + 1 * (j 0).val; omega
    | ⟨1, _⟩ => show win0_0.index t (1 : Fin 2) * 2048 + 1 * k.val = k.val; omega
  · show V m c main_v1 (((cfg0.win 1).blk t).view.emb (ix2 (0 : Fin 1) k)) = V m c main_v1 (ix2 (0 : Fin 1) k)
    refine congrArg (V m c main_v1) (funext fun a => Fin.ext ?_)
    match a with
    | ⟨0, _⟩ => show win0_1.index t (0 : Fin 2) * 1 + 1 * 0 = 0; omega
    | ⟨1, _⟩ => show win0_1.index t (1 : Fin 2) * 2048 + 1 * k.val = k.val; omega
  · show V m c main_v13 (((cfg0.win 2).blk t).view.emb (ix2 (j 1) k)) = V m c main_v13 (ix2 ((((cfg0.win 3).blk t).view.emb j) 1) k)
    refine congrArg (V m c main_v13) (funext fun a => Fin.ext ?_)
    match a with
    | ⟨0, _⟩ => show win0_2.index t (0 : Fin 2) * 2048 + 1 * (j 1).val = win0_3.index t (1 : Fin 2) * 2048 + 1 * (j 1).val; omega
    | ⟨1, _⟩ => show win0_2.index t (1 : Fin 2) * 2048 + 1 * k.val = k.val; omega

/-- An index of the result is in point t's block iff each coordinate is in the block's range on its axis. -/
theorem mem_block (t : Fin cfg0.N) (i : S16384x8192.Idx) :
    i ∈ ((cfg0.win 3).blk t).view.set ↔ ∀ a : Fin 2, win0_3.index t a * S512x2048.size a ≤ (i a).val
      ∧ (i a).val < win0_3.index t a * S512x2048.size a + S512x2048.size a := by
  show i ∈ ((View.whole main_v14).slice (win0_3.rect t)).set ↔ _
  rw [View.set_slice_whole, Rect.mem_set_unit]
  exact Iff.rfl

/-- The 128 blocks tile the result: every index is in the block of the point whose block indices are the index's
    row divided by 512 and column divided by 2048. -/
theorem covered (i : S16384x8192.Idx) : ∃ t : Fin cfg0.N, (cfg0.win 3).flush t = true ∧ i ∈ ((cfg0.win 3).blk t).view.set := by
  have hi0 : (i 0).val < 16384 := (i 0).isLt
  have hi1 : (i 1).val < 8192 := (i 1).isLt
  obtain ⟨t, ht⟩ := block_onto ⟨(i 0).val / 512, by omega⟩ ⟨(i 1).val / 2048, by omega⟩
  have q0 : win0_3.index t (0 : Fin 2) = (i 0).val / 512 := congrFun ht 0
  have q1 : win0_3.index t (1 : Fin 2) = (i 1).val / 2048 := congrFun ht 1
  refine ⟨t, flush0_3 t, ?_⟩
  rw [mem_block]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 2048 ≤ (i 1).val ∧ (i 1).val < win0_3.index t (1 : Fin 2) * 2048 + 2048; omega

/-- THE RESULT ARRAY after the region: the matrix form of the three arrays as the region found them. -/
theorem final (c : Dev nD) :
    (dats m 0 c).arrAt 3 cfg0.N = result2 (V m c main_v0) (V m c main_v1) (V m c main_v13) :=
  (dats m 0 c).arrAt_eq_of_cover 3 (result2 (V m c main_v0) (V m c main_v1) (V m c main_v13))
    (fun t _ => flushed_eq m c t) (covered)

/-! ## The host's last reshape, and the run -/

/-- What the host's reshape after the region leaves in the result buffer. -/
theorem tail_eq (c : Dev nD) :
    Pipeline.afterTail₀ cfgs (dats m) 0 (V0 m) [hostOps1] c main_v15
      = shapeCast S4x4096x8192 ((dats m 0 c).arrAt 3 cfg0.N) shapeCasts_S16384x8192_S4x4096x8192 := by
  unfold Pipeline.afterTail₀
  show StableHlo.after hostOps1 _ (Proc.devRef .tc main_v15) = _
  after_results
  rw [Pipeline.withArrays_arr spec0 launch0.win.arr_inj c _ _ 3]
  rfl

/-- The kernel program's result buffer ends at the layer's result of the three arguments. -/
theorem result_eq (c : Dev nD) :
    Pipeline.afterTail₀ cfgs (dats m) 0 (V0 m) [hostOps1] c main_v15
      = result (m ((c : Thread nD τ).loc main_arg0)) (m ((c : Thread nD τ).loc main_arg1)) (m ((c : Thread nD τ).loc main_arg2)) := by
  rw [tail_eq, final, V_tokens, V_gain, V_weights, wTerm_eq]
  exact result_reshape _ _ _ _ _ _

/-- The run, read: the result buffer at the layer's result, the arguments unchanged. -/
theorem run : θ_run defs (onTc (τ := τ) (main (F := Ideal))) ⟨m, fun _ => 0, ρ⟩ fun r => ∀ c : Dev nD,
      r.2.mem ((c.tc : Thread nD τ).loc main_v15)
        = result (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v15 (Pipeline.mem_restRefs_of main_v15 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Array

end
-- ==== Proof.lean ====
/-
  BitLinear: RMS-normalise each token, quantise it to the int8 grid with the token's own scale, quantise the
  weights to {−1, 0, 1} with one scale for the whole matrix, and multiply.

  Read on the extended reals, the kernel program and the reference compute the same function of the tokens x, the
  gain g and the weights w (BitLinear.result, RowQuant):
    result[b, s, f] = Σ_k actQuant (x[b, s, ·], g) k · wQuant w [f, k].
  The kernel program does it on the token matrix, 512 tokens by 2048 output features at a grid point, and a final
  reshape (KernelBlock: one block's entries; KernelArray: the blocks tile the result; Layout: the two layouts). The
  reference does it on [4, 4096, ·] arrays and wraps both quantised operands in the straight-through expression
  a + (q − a), which is q when a is real; under the precondition every input entry is real (FiniteInputs), hence so
  is every normalised activation (RowQuant.normed_real) (RefValue). The format changes to bf16 are the identity on
  extended reals, and the matrix unit into a zero accumulator is the host's dot product.

  The three frames: the two kernel programs' are the generated frame certificates; the reference's is its
  generated run with the result dropped. The idealisation rewrote nothing, so there is nothing to preserve.
-/
import proofs.«113048_j64570538328617_1_alg».proof.Defs
import proofs.«113048_j64570538328617_1_alg».proof.Proof.Gen.Kernel
import proofs.«113048_j64570538328617_1_alg».proof.Proof.Gen.Kernel.Skeleton
import proofs.«113048_j64570538328617_1_alg».proof.Proof.Gen.Kernel.Launch
import proofs.«113048_j64570538328617_1_alg».proof.Proof.Gen.Kernel.Points
import proofs.«113048_j64570538328617_1_alg».proof.Proof.Gen.Kernel.Frame
import proofs.«113048_j64570538328617_1_alg».proof.Proof.Gen.KernelIdeal
import proofs.«113048_j64570538328617_1_alg».proof.Proof.Gen.KernelIdeal.Skeleton
import proofs.«113048_j64570538328617_1_alg».proof.Proof.Gen.KernelIdeal.Launch
import proofs.«113048_j64570538328617_1_alg».proof.Proof.Gen.KernelIdeal.Points
import proofs.«113048_j64570538328617_1_alg».proof.Proof.Gen.KernelIdeal.Frame
import proofs.«113048_j64570538328617_1_alg».proof.Proof.Gen.ReferenceIdeal
import proofs.«113048_j64570538328617_1_alg».proof.Proof.Gen.Pre_finite_inputs
import proofs.«113048_j64570538328617_1_alg».proof.Proof.Gen.ReferenceIdeal.Run
import proofs.«113048_j64570538328617_1_alg».proof.Proof.Gen.ReferenceIdeal.Read
import proofs.«113048_j64570538328617_1_alg».proof.Proof.FiniteInputs
import proofs.«113048_j64570538328617_1_alg».proof.Proof.RefValue
import proofs.«113048_j64570538328617_1_alg».proof.Proof.KernelArray
import Idealize.ShloMosaic.Adequacy
import Idealize.ShloMosaic.Init

noncomputable section

namespace Cert.Proof

open Idealize.ShloMosaic Idealize.ShloMosaic.TcCoe Idealize.SL.Sem

/-- The word-level kernel program runs and keeps its arguments: the generated frame. -/
theorem frame_kernel : Cert.frame_Kernel := fun m ρ _ => Cert.Kernel.Gen.frame m ρ

/-- So does the idealised one. -/
theorem frame_kernelIdeal : Cert.frame_KernelIdeal := fun m ρ _ => Cert.KernelIdeal.Gen.frame m ρ

/-- The reference runs and keeps its arguments: its generated run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealisation rewrote no operation. -/
theorem preserves : Cert.preserves_Kernel_KernelIdeal := trivial

/-- From memories that agree on real-valued arguments, both programs end with the layer's result. -/
theorem algebraic : Cert.algebraic_KernelIdeal_ReferenceIdeal := by
  intro m ρ m' ρ' hpre hagree
  refine ⟨fun c => BitLinear.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Array.run m ρ, ?_⟩
  refine (θ_run Cert.ReferenceIdeal.defs _ _).mono (fun _ h c => ⟨(h c).1.trans ?_, (h c).2⟩)
    (Cert.ReferenceIdeal.Value.run (F := Ideal) m' ρ')
  obtain ⟨hx, hg, hw⟩ := Cert.Pre_finite_inputs.Decode.real_of_pre _ _ _ (hpre c)
  rw [Cert.ReferenceIdeal.Read.val_main_v41_eq, (hagree c).1, (hagree c).2.1, (hagree c).2.2]
  exact Cert.ReferenceIdeal.RefValue.result_eq _ _ _ hx hg hw

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
